-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S10000x1024 : Shape := ⟨2, ![10000, 1024]⟩
abbrev S100x10000 : Shape := ⟨2, ![100, 10000]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S10000x1024 : S_.BroadcastsInDim S10000x1024 (![] : Fin 0 → Fin S10000x1024.rank)
  reducesTo_S10000x1024_S_d0_1 : S10000x1024.ReducesTo [0, 1] S_

variable [Facts]

def fn {F : FTy → Type} [FloatOps F] (main_arg0 : FVec F S8192x1024 .f32) (main_arg1 : FVec F S10000x1024 .f32) (main_arg2 : IVec S100x10000 1) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S10000x1024 .f32 := Host.absf main_arg1
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  main_v8
-- ==== Kernel.lean ====
abbrev S8192x1024 : Shape := ⟨2, ![8192, 1024]⟩
abbrev S10000x1024 : Shape := ⟨2, ![10000, 1024]⟩
abbrev S100x10000 : Shape := ⟨2, ![100, 10000]⟩
abbrev S_ : Shape := ⟨0, ![]⟩
abbrev S10240x1024 : Shape := ⟨2, ![10240, 1024]⟩
abbrev S100x10240 : Shape := ⟨2, ![100, 10240]⟩
abbrev S8192x100 : Shape := ⟨2, ![8192, 100]⟩
abbrev S1024x1024 : Shape := ⟨2, ![1024, 1024]⟩
abbrev S1280x1024 : Shape := ⟨2, ![1280, 1024]⟩
abbrev S100x1280 : Shape := ⟨2, ![100, 1280]⟩
abbrev S1024x100 : Shape := ⟨2, ![1024, 100]⟩
abbrev S1024x1280 : Shape := ⟨2, ![1024, 1280]⟩

abbrev nBuf : Space → Nat
  | .hbm => 21
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S10000x1024, .f32⟩
  | .hbm, ⟨2, _⟩ => ⟨S100x10000, .i1⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S10000x1024, .bf16⟩
  | .hbm, ⟨8, _⟩ => ⟨S_, .i32⟩
  | .hbm, ⟨9, _⟩ => ⟨S_, .bf16⟩
  | .hbm, ⟨10, _⟩ => ⟨S10240x1024, .bf16⟩
  | .hbm, ⟨11, _⟩ => ⟨S_, .f32⟩
  | .hbm, ⟨12, _⟩ => ⟨S_, .f32⟩
  | .hbm, ⟨13, _⟩ => ⟨S100x10000, .f32⟩
  | .hbm, ⟨14, _⟩ => ⟨S100x10000, .f32⟩
  | .hbm, ⟨15, _⟩ => ⟨S100x10000, .f32⟩
  | .hbm, ⟨16, _⟩ => ⟨S100x10000, .bf16⟩
  | .hbm, ⟨17, _⟩ => ⟨S_, .i32⟩
  | .hbm, ⟨18, _⟩ => ⟨S_, .bf16⟩
  | .hbm, ⟨19, _⟩ => ⟨S100x10240, .bf16⟩
  | .hbm, ⟨20, _⟩ => ⟨S8192x100, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S100x1280, .bf16⟩
  | .local _ .vmem, ⟨5, _⟩ => ⟨S100x1280, .bf16⟩
  | .local _ .vmem, ⟨6, _⟩ => ⟨S1024x100, .f32⟩
  | .local _ .vmem, ⟨7, _⟩ => ⟨S1024x100, .f32⟩
  | .local _ .vmem, ⟨8, _⟩ => ⟨S1024x100, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S100x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x1024 : S_.BroadcastsInDim S8192x1024 (![] : Fin 0 → Fin S8192x1024.rank)
  bitsLt_bf16_f32 : FTy.bits .bf16 < FTy.bits .f32
  pads_S10000x1024_S10240x1024_02400_000 : S10000x1024.Pads (![0, 0] : Fin 2 → Nat) ![240, 0] ![0, 0] S10240x1024
  h_S_ : 0 < S_.numel
  bcast_S_S100x10000 : S_.BroadcastsInDim S100x10000 (![] : Fin 0 → Fin S100x10000.rank)
  pads_S100x10000_S100x10240_000_02400 : S100x10000.Pads (![0, 0] : Fin 2 → Nat) ![0, 240] ![0, 0] S100x10240
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S100x1280_S100x1280_0_0 : ∀ a, (![0, 0] : Fin 2 → Nat) a + S100x1280.size a ≤ S100x1280.size a
  h_S100x1280 : 0 < S100x1280.numel
  shapeCasts_S100x1280_S100x1280 : S100x1280.ShapeCasts S100x1280
  dot_S1024x1024_S1280x1024_S1024x1280_1_1_0_0_n_n_wf : DotDims.WF S1024x1024 S1280x1024 S1024x1280 [1] [1] [0] [0] [] []
  dot_S1024x1280_S100x1280_S1024x100_1_1_0_0_n_n_wf : DotDims.WF S1024x1280 S100x1280 S1024x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S10240x1024.size a
  hwx0_1 : ∀ i : grid0.Coords, EltTy.bits .bf16 = 32 ∨ (Rect.block (s := S10240x1024) S1280x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S100x1280.size a ≤ S100x10240.size a
  hwx0_2 : ∀ i : grid0.Coords, EltTy.bits .bf16 = 32 ∨ (Rect.block (s := S100x10240) S100x1280.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S8192x100.size a
  hwx0_3 : ∀ i : grid0.Coords, EltTy.bits .f32 = 32 ∨ (Rect.block (s := S8192x100) S1024x100.size (cc0_transform_3 i) (hinb0_3 i)).WholeWords (EltTy.packing .f32)

variable [Facts₀]

def dot_S1024x1024_S1280x1024_S1024x1280_1_1_0_0_n_n : DotDims S1024x1024 S1280x1024 S1024x1280 where
  lhsContracting := [1]
  rhsContracting := [1]
  lhsNonContracting := [0]
  rhsNonContracting := [0]
  lhsBatch := []
  rhsBatch := []
  wf := dot_S1024x1024_S1280x1024_S1024x1280_1_1_0_0_n_n_wf
def dot_S1024x1280_S100x1280_S1024x100_1_1_0_0_n_n : DotDims S1024x1280 S100x1280 S1024x100 where
  lhsContracting := [1]
  rhsContracting := [1]
  lhsNonContracting := [0]
  rhsNonContracting := [0]
  lhsBatch := []
  rhsBatch := []
  wf := dot_S1024x1280_S100x1280_S1024x100_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S100x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S10000x1024 : Shape := ⟨2, ![10000, 1024]⟩
abbrev S100x10000 : Shape := ⟨2, ![100, 10000]⟩
abbrev S_ : Shape := ⟨0, ![]⟩
abbrev S1024x10000 : Shape := ⟨2, ![1024, 10000]⟩
abbrev S8192x10000 : Shape := ⟨2, ![8192, 10000]⟩
abbrev S8192x100 : Shape := ⟨2, ![8192, 100]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S10000x1024, .f32⟩
  | .hbm, ⟨2, _⟩ => ⟨S100x10000, .i1⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S1024x10000, .f32⟩
  | .hbm, ⟨7, _⟩ => ⟨S8192x10000, .f32⟩
  | .hbm, ⟨8, _⟩ => ⟨S_, .f32⟩
  | .hbm, ⟨9, _⟩ => ⟨S8192x10000, .f32⟩
  | .hbm, ⟨10, _⟩ => ⟨S8192x10000, .i1⟩
  | .hbm, ⟨11, _⟩ => ⟨S_, .f32⟩
  | .hbm, ⟨12, _⟩ => ⟨S_, .f32⟩
  | .hbm, ⟨13, _⟩ => ⟨S8192x10000, .f32⟩
  | .hbm, ⟨14, _⟩ => ⟨S8192x10000, .f32⟩
  | .hbm, ⟨15, _⟩ => ⟨S8192x10000, .f32⟩
  | .hbm, ⟨16, _⟩ => ⟨S8192x10000, .f32⟩
  | .hbm, ⟨17, _⟩ => ⟨S_, .f32⟩
  | .hbm, ⟨18, _⟩ => ⟨S_, .f32⟩
  | .hbm, ⟨19, _⟩ => ⟨S100x10000, .f32⟩
  | .hbm, ⟨20, _⟩ => ⟨S100x10000, .f32⟩
  | .hbm, ⟨21, _⟩ => ⟨S100x10000, .f32⟩
  | .hbm, ⟨22, _⟩ => ⟨S100x10000, .f32⟩
  | .hbm, ⟨23, _⟩ => ⟨S8192x100, .f32⟩
  | .hbm, ⟨24, _⟩ => ⟨S_, .f32⟩
  | .hbm, ⟨25, _⟩ => ⟨S8192x100, .f32⟩
  | .hbm, ⟨26, _⟩ => ⟨S8192x100, .f32⟩
  | .hbm, ⟨27, _⟩ => ⟨S_, .f32⟩
  | .hbm, ⟨28, _⟩ => ⟨S8192x100, .f32⟩
  | .hbm, ⟨29, _⟩ => ⟨S8192x100, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_cst_6 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  transposes_S10000x1024_S1024x10000_1_0 : S10000x1024.Transposes [1, 0] S1024x10000
  bcast_S_S8192x10000 : S_.BroadcastsInDim S8192x10000 (![] : Fin 0 → Fin S8192x10000.rank)
  bcast_S_S100x10000 : S_.BroadcastsInDim S100x10000 (![] : Fin 0 → Fin S100x10000.rank)
  bcast_S_S8192x100 : S_.BroadcastsInDim S8192x100 (![] : Fin 0 → Fin S8192x100.rank)
  dot_S8192x1024_S1024x10000_S8192x10000_1_0_0_1_n_n_wf : DotDims.WF S8192x1024 S1024x10000 S8192x10000 [1] [0] [0] [1] [] []
  dot_S8192x10000_S100x10000_S8192x100_1_1_0_0_n_n_wf : DotDims.WF S8192x10000 S100x10000 S8192x100 [1] [1] [0] [0] [] []

variable [Facts₀]

def dot_S8192x1024_S1024x10000_S8192x10000_1_0_0_1_n_n : DotDims S8192x1024 S1024x10000 S8192x10000 where
  lhsContracting := [1]
  rhsContracting := [0]
  lhsNonContracting := [0]
  rhsNonContracting := [1]
  lhsBatch := []
  rhsBatch := []
  wf := dot_S8192x1024_S1024x10000_S8192x10000_1_0_0_1_n_n_wf
def dot_S8192x10000_S100x10000_S8192x100_1_1_0_0_n_n : DotDims S8192x10000 S100x10000 S8192x100 where
  lhsContracting := [1]
  rhsContracting := [1]
  lhsNonContracting := [0]
  rhsNonContracting := [0]
  lhsBatch := []
  rhsBatch := []
  wf := dot_S8192x10000_S100x10000_S8192x100_1_1_0_0_n_n_wf

class Facts : Prop extends Facts₀ where

variable [Facts]
-- ==== Proof.Spec.lean ====
/-
  The common value of the two programs: the Hamming agreement count of a thresholded random projection
  against a table of class hypervectors, as ONE function of the three argument arrays over the extended
  reals, index by index.

  For a sample row `b` and a hypervector coordinate `d` the projection is
  `proj b d = ∑ j, (x b j - 1/2) * w d j`; its sign bit, read as ±1, is `sgn (proj b d)`; a class `c`'s
  bit at `d`, read as ±1, is `cpm c d`; and the result is `(10000 + ∑ d < 10000, sgn (proj b d) * cpm c d) * 1/2`.
  The float literals stay the words the programs print (`Ideal.ofBits .f32 …`): the same word stands on both
  sides and is never evaluated.

  The one law the bridge needs is about a finite sum in a commutative monoid: a sum over `N` consecutive
  blocks of `K` terms is the sum over the first `K * N` terms, and terms that vanish from some bound on may be
  dropped. Extended-real addition is commutative and associative everywhere, so no finiteness enters.
-/
import Idealize.ShloMosaic.PureOps.Ideal
import Idealize.ShloMosaic.PureOps.Ideal.Laws
import Idealize.ShloMosaic.Lib.ValueIdx

noncomputable section

namespace Cert.Hamming

open Idealize.ShloMosaic Idealize.ShloMosaic.ValueIdx

/-! ## Sums over consecutive blocks -/

/-- `N` consecutive blocks of `K` terms are the first `K * N` terms. -/
theorem sum_range_blocks {M : Type*} [AddCommMonoid M] (f : ℕ → M) (K : ℕ) :
    ∀ N : ℕ, ∑ s ∈ Finset.range N, ∑ d ∈ Finset.range K, f (K * s + d) = ∑ e ∈ Finset.range (K * N), f e
  | 0 => by simp
  | N + 1 => by
    rw [Finset.sum_range_succ, sum_range_blocks f K N, Nat.mul_succ, Finset.sum_range_add]

/-- Terms that vanish from `n` on may be dropped from a sum over the first `n + r`. -/
theorem sum_range_drop_zero {M : Type*} [AddCommMonoid M] (f : ℕ → M) (n r : ℕ) (hf : ∀ e, n ≤ e → f e = 0) :
    ∑ e ∈ Finset.range (n + r), f e = ∑ e ∈ Finset.range n, f e := by
  rw [Finset.sum_range_add, Finset.sum_eq_zero (fun x _ => hf (n + x) (Nat.le_add_right n x)), add_zero]

/-- Eight blocks of 1280 terms of a sequence that vanishes from 10000 on: the sum of its first 10000 terms. -/
theorem sum_eight_blocks {M : Type*} [AddCommMonoid M] (f : ℕ → M) (hf : ∀ e, 10000 ≤ e → f e = 0) :
    ∑ s ∈ Finset.range 8, ∑ d : Fin 1280, f (1280 * s + d.val) = ∑ d : Fin 10000, f d.val := by
  have h1 : ∀ s, ∑ d : Fin 1280, f (1280 * s + d.val) = ∑ d ∈ Finset.range 1280, f (1280 * s + d) :=
    fun s => Fin.sum_univ_eq_sum_range (fun d => f (1280 * s + d)) 1280
  simp only [h1]
  rw [sum_range_blocks f 1280 8, Fin.sum_univ_eq_sum_range f 10000]
  exact sum_range_drop_zero f 10000 240 hf

/-! ## The specification -/

/-- The threshold's two values and the affine constants, as the words both programs print. -/
abbrev wHalf : EReal := Ideal.ofBits .f32 0x3F000000#32
abbrev wZero : EReal := Ideal.ofBits .f32 0x00000000#32
abbrev wOne : EReal := Ideal.ofBits .f32 0x3F800000#32
abbrev wNegOne : EReal := Ideal.ofBits .f32 0xBF800000#32
abbrev wDims : EReal := Ideal.ofBits .f32 0x461C4000#32

/-- ±1 by the strict threshold at zero. -/
def sgn (p : EReal) : EReal := Scalar.select (Ideal.cmp .ogt p wZero) wOne wNegOne

/-- ±1 by a bit. -/
def pm (b : BitVec 1) : EReal := Scalar.select b wOne wNegOne

/-- The centred sample row `b` against projection row `d`. -/
def proj (x : (⟨2, ![8192, 1024]⟩ : Shape).Idx → EReal) (w : (⟨2, ![10000, 1024]⟩ : Shape).Idx → EReal)
    (b : Fin 8192) (d : Fin 10000) : EReal :=
  ∑ j : Fin 1024, (x (ix2 b j) - wHalf) * w (ix2 d j)

/-- The agreement count of sample `b` with class `c`. -/
def G (x : (⟨2, ![8192, 1024]⟩ : Shape).Idx → EReal) (w : (⟨2, ![10000, 1024]⟩ : Shape).Idx → EReal)
    (cent : (⟨2, ![100, 10000]⟩ : Shape).Idx → BitVec 1) : (⟨2, ![8192, 100]⟩ : Shape).Idx → EReal :=
  fun i => (wDims + ∑ d : Fin 10000, sgn (proj x w (i 0) d) * pm (cent (ix2 (i 1) d))) * wHalf

/-- One column's term of the agreement sum, for EVERY natural column: zero from the table's 10000 columns on. The
    kernel's padded columns are exactly such zero terms. -/
def colTerm (x : (⟨2, ![8192, 1024]⟩ : Shape).Idx → EReal) (w : (⟨2, ![10000, 1024]⟩ : Shape).Idx → EReal)
    (cent : (⟨2, ![100, 10000]⟩ : Shape).Idx → BitVec 1) (b : Fin 8192) (cl : Fin 100) (e : ℕ) : EReal :=
  if h : e < 10000 then sgn (proj x w b ⟨e, h⟩) * pm (cent (ix2 cl ⟨e, h⟩)) else 0

theorem colTerm_of_le (x : (⟨2, ![8192, 1024]⟩ : Shape).Idx → EReal) (w : (⟨2, ![10000, 1024]⟩ : Shape).Idx → EReal)
    (cent : (⟨2, ![100, 10000]⟩ : Shape).Idx → BitVec 1) (b : Fin 8192) (cl : Fin 100) (e : ℕ) (he : 10000 ≤ e) :
    colTerm x w cent b cl e = 0 := dif_neg (by omega)

/-- The specification at (b, cl), over the column terms. -/
theorem G_apply (x : (⟨2, ![8192, 1024]⟩ : Shape).Idx → EReal) (w : (⟨2, ![10000, 1024]⟩ : Shape).Idx → EReal)
    (cent : (⟨2, ![100, 10000]⟩ : Shape).Idx → BitVec 1) (b : Fin 8192) (cl : Fin 100) :
    G x w cent (ix2 b cl) = (wDims + ∑ d : Fin 10000, colTerm x w cent b cl d.val) * wHalf := by
  show (wDims + ∑ d : Fin 10000, sgn (proj x w b d) * pm (cent (ix2 cl d))) * wHalf = _
  refine congrArg (fun s => (wDims + s) * wHalf) (Finset.sum_congr rfl fun d _ => ?_)
  unfold colTerm
  rw [dif_pos d.isLt]

/-- Eight blocks of 1280 column terms are the 10000 real columns' terms. -/
theorem agreement_blocks (x : (⟨2, ![8192, 1024]⟩ : Shape).Idx → EReal) (w : (⟨2, ![10000, 1024]⟩ : Shape).Idx → EReal)
    (cent : (⟨2, ![100, 10000]⟩ : Shape).Idx → BitVec 1) (b : Fin 8192) (cl : Fin 100) :
    ∑ s ∈ Finset.range 8, ∑ d : Fin 1280, colTerm x w cent b cl (1280 * s + d.val) = ∑ d : Fin 10000, colTerm x w cent b cl d.val :=
  sum_eight_blocks (colTerm x w cent b cl) (colTerm_of_le x w cent b cl)

end Cert.Hamming

end
-- ==== Proof.RefValue.lean ====
/-
  The reference computes the specification: read one operation at a time, its result at an index (b, c) is
  `(10000 + ∑ d, sgn (∑ j, (x b j - 1/2) * w d j) * pm (cent c d)) * 1/2`. The transpose of the projection
  matrix only renames the index the inner sum reads; both `where`s are selects between the same two words.
-/
import proofs.«145434_j48223892799748_1_alg».proof.Proof.Gen.ReferenceIdeal.Read
import proofs.«145434_j48223892799748_1_alg».proof.Proof.Spec

noncomputable section

namespace Cert.Hamming.Ref

open Cert.ReferenceIdeal Cert.ReferenceIdeal.Read Idealize.ShloMosaic Idealize.ShloMosaic.ValueIdx Cert.Hamming

/-- The reference's last stage is the specification, index by index. -/
theorem stage_eq (x0 : (⟨S8192x1024, .f32⟩ : BufTy).Contents (Elt Ideal)) (x1 : (⟨S10000x1024, .f32⟩ : BufTy).Contents (Elt Ideal))
    (x2 : (⟨S100x10000, .i1⟩ : BufTy).Contents (Elt Ideal)) :
    val_main_v14 (F := Ideal) x0 x1 x2 = G x0 x1 x2 := by
  funext i
  have e1 : ∀ (k : Fin 10000) (j : Fin 1024), lidx_main_v3 (lidx_main_v10 i k) j = ix2 (i 0) j := fun k j =>
    funext fun a => Fin.ext (by match a with | ⟨0, _⟩ => rfl | ⟨1, _⟩ => rfl)
  have e2 : ∀ (k : Fin 10000) (j : Fin 1024), idx_main_v2 (ridx_main_v3 (lidx_main_v10 i k) j) = ix2 k j := fun k j =>
    funext fun a => Fin.ext (by match a with | ⟨0, _⟩ => rfl | ⟨1, _⟩ => rfl)
  have e3 : ∀ (k : Fin 10000), ridx_main_v10 i k = ix2 (i 1) k := fun k =>
    funext fun a => Fin.ext (by match a with | ⟨0, _⟩ => rfl | ⟨1, _⟩ => rfl)
  rw [val_main_v14_apply, val_main_v12_apply, val_main_v10_apply, val_main_v11_apply, val_main_v13_apply,
    val_main_cst_5_apply, val_main_cst_6_apply]
  simp only [val_main_v7_apply, val_main_v6_apply, val_main_v5_apply, val_main_v3_apply, val_main_v4_apply,
    val_main_cst_0_apply, val_main_call0_v0_apply, val_main_call0_v1_apply, val_main_cst_1_apply, val_main_cst_2_apply,
    val_main_v9_apply, val_main_v8_apply, val_main_call1_v0_apply, val_main_call1_v1_apply, val_main_cst_3_apply,
    val_main_cst_4_apply, val_main_v1_apply, val_main_v0_apply, val_main_cst_apply, val_main_v2_apply, e1, e2, e3]
  rfl

end Cert.Hamming.Ref

end
-- ==== Proof.KernelPieces.lean ====
/-
  What one run of the kernel body leaves behind, as values of its loads, in each of its three control cases.
  The body resets the accumulator at the first step of a reduction run, adds the step's agreement block into it,
  and at the last step stores the affine image of the accumulator into the output block. So:
  first step: the accumulator ends at `update (reset)`; any later step: at `update (what it held)`;
  last step: the output block ends at `finish (update (what the accumulator held))`.
  Each store covers its whole buffer, so what is read back is the stored payload, and a load that follows a
  covering store reads that store's payload.
-/
import proofs.«145434_j48223892799748_1_alg».proof.Proof.Gen.KernelIdeal.Frame
import Idealize.ShloMosaic.Lib.Pipeline.Value
import Idealize.ShloMosaic.Lib.Tactic

noncomputable section

namespace Cert.Hamming.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A step that is neither first nor last: the accumulator is updated from what it held. -/
theorem acc_mid (c : Dev nD) (i : grid0.Coords) (a2 : Memref sig .tc .vmem S1024x1024 .bf16) (h2 : a2.IsWhole) (a3 : Memref sig .tc .vmem S1280x1024 .bf16) (h3 : a3.IsWhole) (a4 : Memref sig .tc .vmem S100x1280 .bf16) (h4 : a4.IsWhole) (a5 : Memref sig .tc .vmem S1024x100 .f32) (h5 : a5.IsWhole) (a6 : Memref sig .tc .vmem S1024x100 .f32) (h6 : a6.IsWhole) (hc0 : ¬cond0_0 i) (hc1 : ¬cond0_1 i)
    (x0 : Vec F S1024x1024 .bf16) (x1 : Vec F S1280x1024 .bf16) (x2 : Vec F S100x1280 .bf16) (xs : Vec F S1024x100 .f32) :
    sout0_B_0 c i a2 h2 a3 h3 a4 h4 a5 h5 a6 h6 hc0 hc1 x0 x1 x2 xs = k0_pay2 x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h4.read_unread, h6.read_unread, View.ld_unit_zero (S := S1024x1024) hz,
    View.ld_unit_zero (S := S1280x1024) hz, View.ld_unit_zero (S := S100x1280) hz, View.ld_unit_zero (S := S1024x100) hz]

/-- The first step of a run: the accumulator is reset, then updated from the reset value. -/
theorem acc_first (c : Dev nD) (i : grid0.Coords) (a2 : Memref sig .tc .vmem S1024x1024 .bf16) (h2 : a2.IsWhole) (a3 : Memref sig .tc .vmem S1280x1024 .bf16) (h3 : a3.IsWhole) (a4 : Memref sig .tc .vmem S100x1280 .bf16) (h4 : a4.IsWhole) (a5 : Memref sig .tc .vmem S1024x100 .f32) (h5 : a5.IsWhole) (a6 : Memref sig .tc .vmem S1024x100 .f32) (h6 : a6.IsWhole) (hc0 : cond0_0 i) (hc1 : ¬cond0_1 i)
    (x0 : Vec F S1024x1024 .bf16) (x1 : Vec F S1280x1024 .bf16) (x2 : Vec F S100x1280 .bf16) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x100) hz, View.readCov_unit_zero (S := S1024x100) _ hz]
  simp only [View.readAt_eq_ld, h2.read_unread, h3.read_unread, h4.read_unread, h6.read_unread, View.ld_unit_zero (S := S1024x1024) hz,
    View.ld_unit_zero (S := S1280x1024) hz, View.ld_unit_zero (S := S100x1280) hz, View.ld_unit_zero (S := S1024x100) hz]

/-- The last step of a run: the accumulator is updated from what it held … -/
theorem acc_last (c : Dev nD) (i : grid0.Coords) (a2 : Memref sig .tc .vmem S1024x1024 .bf16) (h2 : a2.IsWhole) (a3 : Memref sig .tc .vmem S1280x1024 .bf16) (h3 : a3.IsWhole) (a4 : Memref sig .tc .vmem S100x1280 .bf16) (h4 : a4.IsWhole) (a5 : Memref sig .tc .vmem S1024x100 .f32) (h5 : a5.IsWhole) (a6 : Memref sig .tc .vmem S1024x100 .f32) (h6 : a6.IsWhole) (hc0 : ¬cond0_0 i) (hc1 : cond0_1 i)
    (x0 : Vec F S1024x1024 .bf16) (x1 : Vec F S1280x1024 .bf16) (x2 : Vec F S100x1280 .bf16) (xs : Vec F S1024x100 .f32) :
    sout0_C_0 c i a2 h2 a3 h3 a4 h4 a5 h5 a6 h6 hc0 hc1 x0 x1 x2 xs = k0_pay2 x0 x1 x2 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread, View.ld_unit_zero (S := S1024x1024) hz,
    View.ld_unit_zero (S := S1280x1024) hz, View.ld_unit_zero (S := S100x1280) hz, View.ld_unit_zero (S := S1024x100) hz]

/-- … and the output block takes the affine image of the updated accumulator. -/
theorem out_last (c : Dev nD) (i : grid0.Coords) (a2 : Memref sig .tc .vmem S1024x1024 .bf16) (h2 : a2.IsWhole) (a3 : Memref sig .tc .vmem S1280x1024 .bf16) (h3 : a3.IsWhole) (a4 : Memref sig .tc .vmem S100x1280 .bf16) (h4 : a4.IsWhole) (a5 : Memref sig .tc .vmem S1024x100 .f32) (h5 : a5.IsWhole) (a6 : Memref sig .tc .vmem S1024x100 .f32) (h6 : a6.IsWhole) (hc0 : ¬cond0_0 i) (hc1 : cond0_1 i)
    (x0 : Vec F S1024x1024 .bf16) (x1 : Vec F S1280x1024 .bf16) (x2 : Vec F S100x1280 .bf16) (xs : Vec F S1024x100 .f32) :
    out0_C_3 c i a2 h2 a3 h3 a4 h4 a5 h5 a6 h6 hc0 hc1 x0 x1 x2 xs = k0_pay3 (k0_pay2 x0 x1 x2 xs) := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread, View.ld_unit_zero (S := S1024x1024) hz,
    View.ld_unit_zero (S := S1280x1024) hz, View.ld_unit_zero (S := S100x1280) hz, View.ld_unit_zero (S := S1024x100) hz,
    View.readCov_unit_zero (S := S1024x100) _ hz]

end Cert.Hamming.Pieces

end
-- ==== Proof.KernelBody.lean ====
/-
  The body's three payloads read at an index, at the ideal values.

  reset: the zero word everywhere.
  update: at (r, c) the accumulator there plus `∑ d < 1280, sgn (∑ j < 1024, x r j * w d j) * cp c d` — both matrix
    products contract the second axis of both operands into a zero accumulator, so each is the plain sum of
    products over its one contraction coordinate; the threshold and the select act entry by entry; the changes of
    format and the shape casts to the same shape are the identity.
  finish: at (r, c), `(10000 + acc r c) * 1/2`.
-/
import proofs.«145434_j48223892799748_1_alg».proof.Proof.Gen.KernelIdeal.Skeleton
import proofs.«145434_j48223892799748_1_alg».proof.Proof.Spec
import Idealize.ShloMosaic.Lib.Pipeline.Value
import Idealize.ShloMosaic.PureOps.Ideal.Laws

noncomputable section

namespace Cert.Hamming.Body

open Cert.KernelIdeal Cert.KernelIdeal.Gen Idealize.ShloMosaic Idealize.ShloMosaic.ValueIdx Cert.Hamming

/-! ## The projection product: [1024, 1024] against [1280, 1024], second axes contracted -/

theorem projL0 (i : S1024x1280.Idx) (q : dot_S1024x1024_S1280x1024_S1024x1280_1_1_0_0_n_n.contr.Idx) :
    (dot_S1024x1024_S1280x1024_S1024x1280_1_1_0_0_n_n.lhsIdx i q 0).val = (i 0).val := by
  unfold DotDims.lhsIdx
  rw [dif_neg (show ¬(0 : Fin S1024x1024.rank) ∈ dot_S1024x1024_S1280x1024_S1024x1280_1_1_0_0_n_n.lhsBatch by decide), dif_pos (show (0 : Fin S1024x1024.rank) ∈ dot_S1024x1024_S1280x1024_S1024x1280_1_1_0_0_n_n.lhsNonContracting by decide)]
  rfl
theorem projL1 (i : S1024x1280.Idx) (q : dot_S1024x1024_S1280x1024_S1024x1280_1_1_0_0_n_n.contr.Idx) :
    (dot_S1024x1024_S1280x1024_S1024x1280_1_1_0_0_n_n.lhsIdx i q 1).val = (q ⟨0, by decide⟩).val :=
  dot_S1024x1024_S1280x1024_S1024x1280_1_1_0_0_n_n.lhsIdx_val_of_single rfl i q
theorem projR0 (i : S1024x1280.Idx) (q : dot_S1024x1024_S1280x1024_S1024x1280_1_1_0_0_n_n.contr.Idx) :
    (dot_S1024x1024_S1280x1024_S1024x1280_1_1_0_0_n_n.rhsIdx i q 0).val = (i 1).val := by
  unfold DotDims.rhsIdx
  rw [dif_neg (show ¬(0 : Fin S1280x1024.rank) ∈ dot_S1024x1024_S1280x1024_S1024x1280_1_1_0_0_n_n.rhsBatch by decide), dif_pos (show (0 : Fin S1280x1024.rank) ∈ dot_S1024x1024_S1280x1024_S1024x1280_1_1_0_0_n_n.rhsNonContracting by decide)]
  rfl
theorem projR1 (i : S1024x1280.Idx) (q : dot_S1024x1024_S1280x1024_S1024x1280_1_1_0_0_n_n.contr.Idx) :
    (dot_S1024x1024_S1280x1024_S1024x1280_1_1_0_0_n_n.rhsIdx i q 1).val = (q ⟨0, by decide⟩).val :=
  dot_S1024x1024_S1280x1024_S1024x1280_1_1_0_0_n_n.rhsIdx_val_of_single rfl i q

/-- Row `r` of the samples block against row `d` of the projection block. -/
theorem proj_apply (L : FVec Ideal S1024x1024 .bf16) (R : FVec Ideal S1280x1024 .bf16) (r : Fin 1024) (d : Fin 1280) :
    matmul dot_S1024x1024_S1280x1024_S1024x1280_1_1_0_0_n_n none L R (constant S1024x1280 .f32 0x00000000#32) (ix2 r d)
      = ∑ k : Fin 1024, L (ix2 r k) * R (ix2 d k) := by
  simp only [matmul]
  rw [Ideal.matmul_constant_zero_apply, ← Equiv.sum_comp (ValueIdx.contrEquiv1 dot_S1024x1024_S1280x1024_S1024x1280_1_1_0_0_n_n 1024 rfl rfl).symm]
  refine Finset.sum_congr rfl fun k _ => ?_
  have hk := ValueIdx.contrEquiv1_symm_val dot_S1024x1024_S1280x1024_S1024x1280_1_1_0_0_n_n 1024 rfl rfl k
  have el : dot_S1024x1024_S1280x1024_S1024x1280_1_1_0_0_n_n.lhsIdx (ix2 r d) ((ValueIdx.contrEquiv1 dot_S1024x1024_S1280x1024_S1024x1280_1_1_0_0_n_n 1024 rfl rfl).symm k) = ix2 r k := funext fun a => Fin.ext (by
    match a with
    | ⟨0, _⟩ => exact projL0 _ _
    | ⟨1, _⟩ => exact (projL1 _ _).trans hk)
  have er : dot_S1024x1024_S1280x1024_S1024x1280_1_1_0_0_n_n.rhsIdx (ix2 r d) ((ValueIdx.contrEquiv1 dot_S1024x1024_S1280x1024_S1024x1280_1_1_0_0_n_n 1024 rfl rfl).symm k) = ix2 d k := funext fun a => Fin.ext (by
    match a with
    | ⟨0, _⟩ => exact projR0 _ _
    | ⟨1, _⟩ => exact (projR1 _ _).trans hk)
  rw [el, er]

/-! ## The agreement product: [1024, 1280] against [100, 1280], second axes contracted -/

theorem agrL0 (i : S1024x100.Idx) (q : dot_S1024x1280_S100x1280_S1024x100_1_1_0_0_n_n.contr.Idx) :
    (dot_S1024x1280_S100x1280_S1024x100_1_1_0_0_n_n.lhsIdx i q 0).val = (i 0).val := by
  unfold DotDims.lhsIdx
  rw [dif_neg (show ¬(0 : Fin S1024x1280.rank) ∈ dot_S1024x1280_S100x1280_S1024x100_1_1_0_0_n_n.lhsBatch by decide), dif_pos (show (0 : Fin S1024x1280.rank) ∈ dot_S1024x1280_S100x1280_S1024x100_1_1_0_0_n_n.lhsNonContracting by decide)]
  rfl
theorem agrL1 (i : S1024x100.Idx) (q : dot_S1024x1280_S100x1280_S1024x100_1_1_0_0_n_n.contr.Idx) :
    (dot_S1024x1280_S100x1280_S1024x100_1_1_0_0_n_n.lhsIdx i q 1).val = (q ⟨0, by decide⟩).val :=
  dot_S1024x1280_S100x1280_S1024x100_1_1_0_0_n_n.lhsIdx_val_of_single rfl i q
theorem agrR0 (i : S1024x100.Idx) (q : dot_S1024x1280_S100x1280_S1024x100_1_1_0_0_n_n.contr.Idx) :
    (dot_S1024x1280_S100x1280_S1024x100_1_1_0_0_n_n.rhsIdx i q 0).val = (i 1).val := by
  unfold DotDims.rhsIdx
  rw [dif_neg (show ¬(0 : Fin S100x1280.rank) ∈ dot_S1024x1280_S100x1280_S1024x100_1_1_0_0_n_n.rhsBatch by decide), dif_pos (show (0 : Fin S100x1280.rank) ∈ dot_S1024x1280_S100x1280_S1024x100_1_1_0_0_n_n.rhsNonContracting by decide)]
  rfl
theorem agrR1 (i : S1024x100.Idx) (q : dot_S1024x1280_S100x1280_S1024x100_1_1_0_0_n_n.contr.Idx) :
    (dot_S1024x1280_S100x1280_S1024x100_1_1_0_0_n_n.rhsIdx i q 1).val = (q ⟨0, by decide⟩).val :=
  dot_S1024x1280_S100x1280_S1024x100_1_1_0_0_n_n.rhsIdx_val_of_single rfl i q

/-- Row `r` of the ±1 encoding block against row `cl` of the class block. -/
theorem agr_apply (L : FVec Ideal S1024x1280 .bf16) (R : FVec Ideal S100x1280 .bf16) (r : Fin 1024) (cl : Fin 100) :
    matmul dot_S1024x1280_S100x1280_S1024x100_1_1_0_0_n_n none L R (constant S1024x100 .f32 0x00000000#32) (ix2 r cl)
      = ∑ k : Fin 1280, L (ix2 r k) * R (ix2 cl k) := by
  simp only [matmul]
  rw [Ideal.matmul_constant_zero_apply, ← Equiv.sum_comp (ValueIdx.contrEquiv1 dot_S1024x1280_S100x1280_S1024x100_1_1_0_0_n_n 1280 rfl rfl).symm]
  refine Finset.sum_congr rfl fun k _ => ?_
  have hk := ValueIdx.contrEquiv1_symm_val dot_S1024x1280_S100x1280_S1024x100_1_1_0_0_n_n 1280 rfl rfl k
  have el : dot_S1024x1280_S100x1280_S1024x100_1_1_0_0_n_n.lhsIdx (ix2 r cl) ((ValueIdx.contrEquiv1 dot_S1024x1280_S100x1280_S1024x100_1_1_0_0_n_n 1280 rfl rfl).symm k) = ix2 r k := funext fun a => Fin.ext (by
    match a with
    | ⟨0, _⟩ => exact agrL0 _ _
    | ⟨1, _⟩ => exact (agrL1 _ _).trans hk)
  have er : dot_S1024x1280_S100x1280_S1024x100_1_1_0_0_n_n.rhsIdx (ix2 r cl) ((ValueIdx.contrEquiv1 dot_S1024x1280_S100x1280_S1024x100_1_1_0_0_n_n 1280 rfl rfl).symm k) = ix2 cl k := funext fun a => Fin.ext (by
    match a with
    | ⟨0, _⟩ => exact agrR0 _ _
    | ⟨1, _⟩ => exact (agrR1 _ _).trans hk)
  rw [el, er]

/-! ## The payloads -/

/-- The reset stores the zero word. -/
theorem reset_apply (y : S1024x100.Idx) : k0_pay1 (F := Ideal) y = wZero := by
  unfold k0_pay1
  simp only [shapeCast_self]
  rfl

/-- The update, as one expression of its four loads. -/
theorem update_eq (x0 : FVec Ideal S1024x1024 .bf16) (x1 : FVec Ideal S1280x1024 .bf16) (x2 : FVec Ideal S100x1280 .bf16) (acc : FVec Ideal S1024x100 .f32) :
    k0_pay2 (F := Ideal) x0 x1 x2 acc
      = addf acc (matmul dot_S1024x1280_S100x1280_S1024x100_1_1_0_0_n_n none
          (truncf .bf16 (select (cmpf .ogt (matmul dot_S1024x1024_S1280x1024_S1024x1280_1_1_0_0_n_n none x0 x1 (constant S1024x1280 .f32 0x00000000#32))
              (broadcast S1024x1280 (Scalar.ofBits (F := Ideal) .f32 0x00000000#32)))
            (broadcast S1024x1280 (Scalar.ofBits (F := Ideal) .f32 0x3F800000#32)) (broadcast S1024x1280 (Scalar.ofBits (F := Ideal) .f32 0xBF800000#32))) bitsLt_bf16_f32)
          x2 (constant S1024x100 .f32 0x00000000#32)) := by
  unfold k0_pay2
  simp only [shapeCast_self]

/-- The update at an index. -/
theorem update_apply (x0 : FVec Ideal S1024x1024 .bf16) (x1 : FVec Ideal S1280x1024 .bf16) (x2 : FVec Ideal S100x1280 .bf16) (acc : FVec Ideal S1024x100 .f32)
    (r : Fin 1024) (cl : Fin 100) :
    k0_pay2 (F := Ideal) x0 x1 x2 acc (ix2 r cl)
      = acc (ix2 r cl) + ∑ d : Fin 1280, sgn (∑ j : Fin 1024, x0 (ix2 r j) * x1 (ix2 d j)) * x2 (ix2 cl d) := by
  rw [update_eq]
  refine (addf_apply _ _ _).trans ?_
  refine congrArg (acc (ix2 r cl) + ·) ?_
  refine (agr_apply _ _ r cl).trans ?_
  refine Finset.sum_congr rfl fun d _ => ?_
  refine congrArg (· * x2 (ix2 cl d)) ?_
  show Scalar.select (FloatOps.cmpf .ogt (matmul dot_S1024x1024_S1280x1024_S1024x1280_1_1_0_0_n_n none x0 x1 (constant S1024x1280 .f32 0x00000000#32) (ix2 r d)) _) _ _ = _
  rw [proj_apply]
  rfl

/-- The finish at an index. -/
theorem finish_apply (v : FVec Ideal S1024x100 .f32) (y : S1024x100.Idx) :
    k0_pay3 (F := Ideal) v y = (wDims + v y) * wHalf := by
  unfold k0_pay3
  rfl

end Cert.Hamming.Body

end
-- ==== Proof.KernelHost.lean ====
/-
  What the kernel's region finds in the three arrays it stages, as functions of the argument arrays, read at an
  index. The centred samples are `x - 1/2` (the change of format is the identity at the ideal values). The
  projection matrix is padded with 240 rows and the ±1 class table with 240 columns, the padding value being the
  integer 0 converted: real rows and columns read the operand, padded ones read 0.
-/
import proofs.«145434_j48223892799748_1_alg».proof.Proof.Gen.KernelIdeal.Frame
import proofs.«145434_j48223892799748_1_alg».proof.Proof.Spec
import Idealize.ShloMosaic.Lib.StableHlo.Run
import Idealize.ShloMosaic.Lib.KernelVsHost

noncomputable section

namespace Cert.Hamming.Prefix

open Cert.KernelIdeal Cert.KernelIdeal.Gen Idealize.ShloMosaic Idealize.ShloMosaic.TcCoe Idealize.SL.Sem
open Idealize.ShloMosaic.StableHlo Idealize.ShloMosaic.ValueIdx Cert.Hamming

variable (m : (ℓ : Loc nD τ sig) → Buf (Elt Ideal) ℓ)

/-- The three argument arrays on core `c`, at their literal types. -/
abbrev xArg (c : Dev nD) : (⟨2, ![8192, 1024]⟩ : Shape).Idx → EReal := m ((c : Thread nD τ).loc main_arg0)
abbrev wArg (c : Dev nD) : (⟨2, ![10000, 1024]⟩ : Shape).Idx → EReal := m ((c : Thread nD τ).loc main_arg1)
abbrev centArg (c : Dev nD) : (⟨2, ![100, 10000]⟩ : Shape).Idx → BitVec 1 := m ((c : Thread nD τ).loc main_arg2)

/-- The padding value: the integer zero, converted. -/
theorem padValue : (sitofp (F := Ideal) .bf16 (constantI S_ 32 0#32) : FVec Ideal S_ .bf16) (Shape.Idx.first h_S_) = 0 := by
  show (((0#32 : BitVec 32).toInt : ℝ) : EReal) = 0
  simp

/-- The centred samples. -/
theorem samples_apply (c : Dev nD) (b : Fin 8192) (j : Fin 1024) :
    (V m c main_v2 : S8192x1024.Idx → EReal) (ix2 b j) = xArg m c (ix2 b j) - wHalf := by
  have e : (V m c main_v2 : S8192x1024.Idx → EReal)
      = truncf .bf16 (subf (xArg m c) (broadcastInDim S8192x1024 ![] bcast_S_S8192x1024 (constant (F := Ideal) S_ .f32 0x3F000000#32))) bitsLt_bf16_f32 := by
    dsimp only [V]
    simp only [hostOps0, hostOps0_1, hostOps0_2, hostOps0_3, hostOps0_4, hostOps0_5, List.flatten_cons, List.flatten_nil,
      List.append_nil, List.cons_append, List.nil_append]
    after_results
  rw [e]
  rfl

/-- The padded projection matrix. -/
theorem weight_apply (c : Dev nD) (e : Fin 10240) (j : Fin 1024) :
    (V m c main_v4 : S10240x1024.Idx → EReal) (ix2 e j)
      = if h : e.val < 10000 then wArg m c (ix2 ⟨e.val, h⟩ j) else 0 := by
  have e' : (V m c main_v4 : S10240x1024.Idx → EReal)
      = pad S10240x1024 ![0, 0] ![240, 0] ![0, 0] (truncf .bf16 (wArg m c) bitsLt_bf16_f32 : FVec Ideal S10000x1024 .bf16)
          (sitofp (F := Ideal) .bf16 (constantI S_ 32 0#32) : FVec Ideal S_ .bf16) pads_S10000x1024_S10240x1024_02400_000 h_S_ := by
    dsimp only [V]
    simp only [hostOps0, hostOps0_1, hostOps0_2, hostOps0_3, hostOps0_4, hostOps0_5, List.flatten_cons, List.flatten_nil,
      List.append_nil, List.cons_append, List.nil_append]
    after_results
    rfl
  rw [e']
  by_cases h : e.val < 10000
  · rw [dif_pos h, pad_apply_of_inside _ _ _ _ _ _ _ (ix2 e j) (ix2 (⟨e.val, h⟩ : Fin 10000) j)
      (fun a => by match a with | ⟨0, _⟩ => simp | ⟨1, _⟩ => simp)]
    rfl
  · rw [dif_neg h, pad_apply_of_not_inside _ _ _ _ _ _ _ (ix2 e j) (0 : Fin 2) (fun hh => h (by simpa using hh.2.2))]
    exact padValue

/-- The padded ±1 class table. -/
theorem classes_apply (c : Dev nD) (cl : Fin 100) (e : Fin 10240) :
    (V m c main_v7 : S100x10240.Idx → EReal) (ix2 cl e)
      = if h : e.val < 10000 then pm (centArg m c (ix2 cl ⟨e.val, h⟩)) else 0 := by
  have e' : (V m c main_v7 : S100x10240.Idx → EReal)
      = pad S100x10240 ![0, 0] ![0, 240] ![0, 0]
          (truncf .bf16 (select (centArg m c) (broadcastInDim S100x10000 ![] bcast_S_S100x10000 (constant (F := Ideal) S_ .f32 0x3F800000#32))
            (broadcastInDim S100x10000 ![] bcast_S_S100x10000 (constant (F := Ideal) S_ .f32 0xBF800000#32))) bitsLt_bf16_f32 : FVec Ideal S100x10000 .bf16)
          (sitofp (F := Ideal) .bf16 (constantI S_ 32 0#32) : FVec Ideal S_ .bf16) pads_S100x10000_S100x10240_000_02400 h_S_ := by
    dsimp only [V]
    simp only [hostOps0, hostOps0_1, hostOps0_2, hostOps0_3, hostOps0_4, hostOps0_5, List.flatten_cons, List.flatten_nil,
      List.append_nil, List.cons_append, List.nil_append]
    after_results
    rfl
  rw [e']
  by_cases h : e.val < 10000
  · rw [dif_pos h, pad_apply_of_inside _ _ _ _ _ _ _ (ix2 cl e) (ix2 cl (⟨e.val, h⟩ : Fin 10000))
      (fun a => by match a with | ⟨0, _⟩ => simp | ⟨1, _⟩ => simp)]
    rfl
  · rw [dif_neg h, pad_apply_of_not_inside _ _ _ _ _ _ _ (ix2 cl e) (1 : Fin 2) (fun hh => h (by simpa using hh.2.2))]
    exact padValue

end Cert.Hamming.Prefix

end
-- ==== Proof.KernelBlocks.lean ====
/-
  The blocks a grid point sees, in terms of the argument arrays. Point `t` of the 8 × 8 grid is (row tile `t / 8`,
  reduction step `t % 8`): its samples block is rows `1024·(t/8) …` of the centred samples, its projection block rows
  `1280·(t%8) …` of the padded projection matrix, its class block columns `1280·(t%8) …` of the padded class table.
  So the term the step adds at (r, cl) for its local column `d` is the specification's column term of global column
  `1280·(t%8) + d` for global row `1024·(t/8) + r`: on a real column both are the thresholded projection times the
  class bit; on a padded column the class entry is 0 and so is the term.
-/
import proofs.«145434_j48223892799748_1_alg».proof.Proof.Gen.KernelIdeal.Frame
import proofs.«145434_j48223892799748_1_alg».proof.Proof.Spec
import proofs.«145434_j48223892799748_1_alg».proof.Proof.KernelHost

noncomputable section

namespace Cert.Hamming.Blocks

open Cert.KernelIdeal Cert.KernelIdeal.Gen Idealize.ShloMosaic Idealize.ShloMosaic.TcCoe Idealize.SL.Sem
open Idealize.ShloMosaic.ValueIdx Cert.Hamming Cert.Hamming.Prefix

variable (m : (ℓ : Loc nD τ sig) → Buf (Elt Ideal) ℓ)

theorem lt64 (t : Fin cfg0.N) : t.val < 64 := lt_of_lt_of_eq t.isLt (show cfg0.N = 64 from N_0)

/-- The three input blocks of point `t`, at their literal types. -/
abbrev xblk (c : Dev nD) (t : Fin cfg0.N) : FVec Ideal S1024x1024 .bf16 := iblk m c 0 t
abbrev wblk (c : Dev nD) (t : Fin cfg0.N) : FVec Ideal S1280x1024 .bf16 := iblk m c 1 t
abbrev cblk (c : Dev nD) (t : Fin cfg0.N) : FVec Ideal S100x1280 .bf16 := iblk m c 2 t

/-- The global sample row of local row `r` at point `t`, and the global column of local column `d`. -/
def rowOf (t : Fin cfg0.N) (r : Fin 1024) : Fin 8192 := ⟨1024 * (t.val / 8) + r.val, by have := lt64 t; omega⟩
def colOf (t : Fin cfg0.N) (d : Fin 1280) : Fin 10240 := ⟨1280 * (t.val % 8) + d.val, by omega⟩

/-- The printed index maps over the grid: the row tile is `t / 8`, the reduction step `t % 8`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

theorem xblk_apply (c : Dev nD) (t : Fin cfg0.N) (r : Fin 1024) (j : Fin 1024) :
    xblk m c t (ix2 r j) = (V m c main_v2 : S8192x1024.Idx → EReal) (ix2 (rowOf t r) j) := by
  obtain ⟨e0, e1, -⟩ := idx_facts t
  show (V m c main_v2 : S8192x1024.Idx → EReal) (((cfg0.win 0).blk t).view.emb (ix2 r j)) = _
  refine congrArg _ (funext fun a => Fin.ext ?_)
  match a with
  | ⟨0, _⟩ => show win0_0.index t (0 : Fin 2) * 1024 + 1 * r.val = 1024 * (t.val / 8) + r.val; omega
  | ⟨1, _⟩ => show win0_0.index t (1 : Fin 2) * 1024 + 1 * j.val = j.val; omega

theorem wblk_apply (c : Dev nD) (t : Fin cfg0.N) (d : Fin 1280) (j : Fin 1024) :
    wblk m c t (ix2 d j) = (V m c main_v4 : S10240x1024.Idx → EReal) (ix2 (colOf t d) j) := by
  obtain ⟨-, -, e0, e1, -⟩ := idx_facts t
  show (V m c main_v4 : S10240x1024.Idx → EReal) (((cfg0.win 1).blk t).view.emb (ix2 d j)) = _
  refine congrArg _ (funext fun a => Fin.ext ?_)
  match a with
  | ⟨0, _⟩ => show win0_1.index t (0 : Fin 2) * 1280 + 1 * d.val = 1280 * (t.val % 8) + d.val; omega
  | ⟨1, _⟩ => show win0_1.index t (1 : Fin 2) * 1024 + 1 * j.val = j.val; omega

theorem cblk_apply (c : Dev nD) (t : Fin cfg0.N) (cl : Fin 100) (d : Fin 1280) :
    cblk m c t (ix2 cl d) = (V m c main_v7 : S100x10240.Idx → EReal) (ix2 cl (colOf t d)) := by
  obtain ⟨-, -, -, -, e0, e1, -⟩ := idx_facts t
  show (V m c main_v7 : S100x10240.Idx → EReal) (((cfg0.win 2).blk t).view.emb (ix2 cl d)) = _
  refine congrArg _ (funext fun a => Fin.ext ?_)
  match a with
  | ⟨0, _⟩ => show win0_2.index t (0 : Fin 2) * 100 + 1 * cl.val = cl.val; omega
  | ⟨1, _⟩ => show win0_2.index t (1 : Fin 2) * 1280 + 1 * d.val = 1280 * (t.val % 8) + d.val; omega

/-- The term point `t` adds at (r, cl) for its local column `d` is the specification's column term. -/
theorem term_eq (c : Dev nD) (t : Fin cfg0.N) (r : Fin 1024) (cl : Fin 100) (d : Fin 1280) :
    sgn (∑ j : Fin 1024, xblk m c t (ix2 r j) * wblk m c t (ix2 d j)) * cblk m c t (ix2 cl d)
      = colTerm (xArg m c) (wArg m c) (centArg m c) (rowOf t r) cl (1280 * (t.val % 8) + d.val) := by
  rw [cblk_apply, classes_apply]
  unfold colTerm
  by_cases h : 1280 * (t.val % 8) + d.val < 10000
  · rw [dif_pos (show (colOf t d).val < 10000 from h), dif_pos h]
    refine congrArg (fun p => sgn p * pm (centArg m c (ix2 cl ⟨1280 * (t.val % 8) + d.val, h⟩))) ?_
    unfold proj
    refine Finset.sum_congr rfl fun j _ => ?_
    rw [xblk_apply, wblk_apply, samples_apply, weight_apply, dif_pos (show (colOf t d).val < 10000 from h)]
    rfl
  · rw [dif_neg (show ¬(colOf t d).val < 10000 from h), dif_neg h, mul_zero]

end Cert.Hamming.Blocks

end
-- ==== Proof.KernelAcc.lean ====
/-
  The accumulator over a reduction run. Within row tile `q` the eight steps `8q … 8q + 7` reset the accumulator and
  then add, one after the other, each step's agreement block; so after step `8q + k` it holds, entry by entry,
  `0 + ∑ s ≤ k, addend (8q + s)` — the left fold of the additions, which is that finite sum. At the run's last step the
  output block takes `(10000 + accumulator) * 1/2` of the accumulator that step leaves.
-/
import proofs.«145434_j48223892799748_1_alg».proof.Proof.Gen.KernelIdeal.Value
import proofs.«145434_j48223892799748_1_alg».proof.Proof.KernelPieces
import proofs.«145434_j48223892799748_1_alg».proof.Proof.KernelBody
import proofs.«145434_j48223892799748_1_alg».proof.Proof.KernelBlocks

noncomputable section

namespace Cert.Hamming.Acc

open Cert.KernelIdeal Cert.KernelIdeal.Gen Idealize.ShloMosaic Idealize.ShloMosaic.TcCoe Idealize.SL.Sem
open Idealize.ShloMosaic.ValueIdx Cert.Hamming Cert.Hamming.Blocks
open Cert.KernelIdeal.Value (scAt0_0 soutsAt0_0_eq)

variable (m : (ℓ : Loc nD τ sig) → Buf (Elt Ideal) ℓ)

/-- The agreement block step `n` adds, entry by entry, for every natural `n` (zero past the grid, where no step is). -/
def addend (c : Dev nD) (n : ℕ) (y : S1024x100.Idx) : EReal :=
  if h : n < cfg0.N then
    ∑ d : Fin 1280, sgn (∑ j : Fin 1024, xblk m c ⟨n, h⟩ (ix2 (y 0) j) * wblk m c ⟨n, h⟩ (ix2 d j)) * cblk m c ⟨n, h⟩ (ix2 (y 1) d)
  else 0

theorem addend_apply (c : Dev nD) (t : Fin cfg0.N) (r : Fin 1024) (cl : Fin 100) :
    addend m c t.val (ix2 r cl)
      = ∑ d : Fin 1280, sgn (∑ j : Fin 1024, xblk m c t (ix2 r j) * wblk m c t (ix2 d j)) * cblk m c t (ix2 cl d) := by
  unfold addend
  rw [dif_pos t.isLt]

/-- The first step of a run leaves the zero word plus its agreement block, whatever the accumulator held. -/
theorem first_step (c : Dev nD) (n : ℕ) (hb : n < cfg0.N) (h0 : n % 8 = 0) (acc : Vec Ideal S1024x100 .f32) (y : S1024x100.Idx) :
    scAt0_0 m c n hb acc y = wZero + addend m c n y := by
  have h1 : ¬n % 8 = 7 := by omega
  obtain ⟨r, cl, rfl⟩ : ∃ (r : Fin 1024) (cl : Fin 100), y = ix2 r cl := ⟨y 0, y 1, eq_ix2 y⟩
  unfold scAt0_0
  rw [dif_pos h0, dif_neg h1]
  refine (congrFun (Pieces.acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 r cl)).trans ?_
  refine (Body.update_apply (xblk m c (⟨n, hb⟩ : Fin cfg0.N)) (wblk m c (⟨n, hb⟩ : Fin cfg0.N)) (cblk m c (⟨n, hb⟩ : Fin cfg0.N)) (k0_pay1 (F := Ideal)) r cl).trans ?_
  rw [Body.reset_apply, addend_apply m c (⟨n, hb⟩ : Fin cfg0.N) r cl]

/-- Every later step adds its agreement block to what the accumulator held. -/
theorem later_step (c : Dev nD) (n : ℕ) (hb : n < cfg0.N) (h0 : ¬n % 8 = 0) (acc : Vec Ideal S1024x100 .f32) (y : S1024x100.Idx) :
    scAt0_0 m c n hb acc y = acc y + addend m c n y := by
  obtain ⟨r, cl, rfl⟩ : ∃ (r : Fin 1024) (cl : Fin 100), y = ix2 r cl := ⟨y 0, y 1, eq_ix2 y⟩
  unfold scAt0_0
  rw [dif_neg h0]
  by_cases h1 : n % 8 = 7
  · rw [dif_pos h1]
    refine (congrFun (Pieces.acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 r cl)).trans ?_
    refine (Body.update_apply (xblk m c (⟨n, hb⟩ : Fin cfg0.N)) (wblk m c (⟨n, hb⟩ : Fin cfg0.N)) (cblk m c (⟨n, hb⟩ : Fin cfg0.N)) acc r cl).trans ?_
    rw [addend_apply m c (⟨n, hb⟩ : Fin cfg0.N) r cl]
  · rw [dif_neg h1]
    refine (congrFun (Pieces.acc_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 r cl)).trans ?_
    refine (Body.update_apply (xblk m c (⟨n, hb⟩ : Fin cfg0.N)) (wblk m c (⟨n, hb⟩ : Fin cfg0.N)) (cblk m c (⟨n, hb⟩ : Fin cfg0.N)) acc r cl).trans ?_
    rw [addend_apply m c (⟨n, hb⟩ : Fin cfg0.N) r cl]

/-- THE ACCUMULATOR after point `t`: the zero word plus the agreement blocks of its run's steps up to `t`. -/
theorem scratch_apply (c : Dev nD) (t : Fin cfg0.N) (y : S1024x100.Idx) :
    (outsAt0 m c t.val t.isLt).2 y = wZero + ∑ s ∈ Finset.range (t.val % 8 + 1), addend m c (8 * (t.val / 8) + s) y := by
  rw [soutsAt0_0_eq m c t]
  exact Pipeline.accAt_add_apply (ι := S1024x100.Idx) (β := EReal)
    (fun n h => scAt0_0 m c n h (VS0_0.read (Elt Ideal) VS0_0.junk)) (scAt0_0 m c) (fun _ => wZero) (addend m c) (8 * (t.val / 8)) 7
    (fun h i => first_step m c _ h (by omega) _ i)
    (fun n h acc i hlt hle => later_step m c n h (by omega) acc i)
    (t.val % 8) (by omega) _ y

/-- One run of the body at a last step, entry by entry: the output block is the affine image of the accumulator it leaves. -/
theorem last_pair (c : Dev nD) (i : grid0.Coords) (a2 : Memref sig .tc .vmem S1024x1024 .bf16) (h2 : a2.IsWhole) (a3 : Memref sig .tc .vmem S1280x1024 .bf16) (h3 : a3.IsWhole)
    (a4 : Memref sig .tc .vmem S100x1280 .bf16) (h4 : a4.IsWhole) (a5 : Memref sig .tc .vmem S1024x100 .f32) (h5 : a5.IsWhole) (a6 : Memref sig .tc .vmem S1024x100 .f32) (h6 : a6.IsWhole)
    (hc0 : ¬cond0_0 i) (hc1 : cond0_1 i) (x0 : Vec Ideal S1024x1024 .bf16) (x1 : Vec Ideal S1280x1024 .bf16) (x2 : Vec Ideal S100x1280 .bf16) (xs : Vec Ideal S1024x100 .f32)
    (y : S1024x100.Idx) :
    out0_C_3 c i a2 h2 a3 h3 a4 h4 a5 h5 a6 h6 hc0 hc1 x0 x1 x2 xs y
      = (wDims + sout0_C_0 c i a2 h2 a3 h3 a4 h4 a5 h5 a6 h6 hc0 hc1 x0 x1 x2 xs y) * wHalf := by
  rw [Pieces.out_last, Pieces.acc_last]
  exact Body.finish_apply _ y

/-- THE OUTPUT BLOCK after a run's last point. -/
theorem out_apply (c : Dev nD) (t : Fin cfg0.N) (h0 : ¬t.val % 8 = 0) (h1 : t.val % 8 = 7) (y : S1024x100.Idx) :
    (outsAt0 m c t.val t.isLt).1 y = (wDims + (outsAt0 m c t.val t.isLt).2 y) * wHalf := by
  rw [outsAt0_C m c t h0 h1]
  dsimp only
  exact last_pair c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _ y

end Cert.Hamming.Acc

end
-- ==== Proof.KernelValue.lean ====
/-
  The kernel's result array. A row tile's output block is written back once, after the tile's last reduction step,
  and holds `(10000 + accumulator) * 1/2`; the accumulator there is `0 +` the eight steps' agreement blocks, which
  are eight consecutive blocks of 1280 column terms of the specification: the 10000 real columns' terms and 240
  zero terms. So every block written back is its block of the specification, the eight row tiles' blocks cover the
  array, and the array ends at the specification.
-/
import proofs.«145434_j48223892799748_1_alg».proof.Proof.Gen.KernelIdeal.Value
import proofs.«145434_j48223892799748_1_alg».proof.Proof.KernelAcc

noncomputable section

namespace Cert.Hamming.Final

open Cert.KernelIdeal Cert.KernelIdeal.Gen Idealize.ShloMosaic Idealize.ShloMosaic.TcCoe Idealize.SL.Sem
open Idealize.ShloMosaic.Pipeline (Dat)
open Idealize.ShloMosaic.ValueIdx Cert.Hamming Cert.Hamming.Prefix Cert.Hamming.Blocks Cert.Hamming.Acc

variable (m : (ℓ : Loc nD τ sig) → Buf (Elt Ideal) ℓ) (ρ : Dev nD → PrngReg)

/-- The specification of the argument arrays on core `c`. -/
abbrev result (c : Dev nD) : (⟨2, ![8192, 100]⟩ : Shape).Idx → EReal := G (xArg m c) (wArg m c) (centArg m c)

/-- A whole run's agreement blocks at (r, cl) are the 10000 real columns' terms of the tile's global row. -/
theorem run_sum (c : Dev nD) (t : Fin cfg0.N) (h1 : t.val % 8 = 7) (r : Fin 1024) (cl : Fin 100) :
    ∑ s ∈ Finset.range (t.val % 8 + 1), addend m c (8 * (t.val / 8) + s) (ix2 r cl)
      = ∑ d : Fin 10000, colTerm (xArg m c) (wArg m c) (centArg m c) (rowOf t r) cl d.val := by
  rw [h1, ← agreement_blocks]
  refine Finset.sum_congr rfl fun s hs => ?_
  have hs8 : s < 8 := Finset.mem_range.mp hs
  have ht := lt64 t
  have hb : 8 * (t.val / 8) + s < cfg0.N :=
    lt_of_lt_of_eq (by omega : 8 * (t.val / 8) + s < 64) (show cfg0.N = 64 from N_0).symm
  refine (addend_apply m c (⟨8 * (t.val / 8) + s, hb⟩ : Fin cfg0.N) r cl).trans ?_
  refine Finset.sum_congr rfl fun d _ => ?_
  rw [term_eq]
  have e1 : rowOf (⟨8 * (t.val / 8) + s, hb⟩ : Fin cfg0.N) r = rowOf t r :=
    Fin.ext (by show 1024 * ((8 * (t.val / 8) + s) / 8) + r.val = 1024 * (t.val / 8) + r.val; omega)
  have e2 : (8 * (t.val / 8) + s) % 8 = s := by omega
  rw [e1]
  show colTerm _ _ _ _ _ (1280 * ((8 * (t.val / 8) + s) % 8) + d.val) = _
  rw [e2]

/-- WHAT A WRITE-BACK WRITES is its block of the specification. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have h0 : ¬t.val % 8 = 0 := by omega
  rw [Cert.KernelIdeal.Value.flushed3 m c t]
  funext y
  obtain ⟨r, cl, rfl⟩ : ∃ (r : Fin 1024) (cl : Fin 100), y = ix2 r cl := ⟨y 0, y 1, eq_ix2 y⟩
  show (outsAt0 m c t.val t.isLt).1 (ix2 r cl) = result m c (((cfg0.win 3).blk t).view.emb (ix2 r cl))
  have hemb : ((cfg0.win 3).blk t).view.emb (ix2 r cl) = ix2 (rowOf t r) cl := by
    obtain ⟨-, -, -, -, -, -, e0, e1⟩ := idx_facts t
    funext a; apply Fin.ext
    match a with
    | ⟨0, _⟩ => show win0_3.index t (0 : Fin 2) * 1024 + 1 * r.val = 1024 * (t.val / 8) + r.val; omega
    | ⟨1, _⟩ => show win0_3.index t (1 : Fin 2) * 100 + 1 * cl.val = cl.val; omega
  rw [hemb, out_apply m c t h0 h1, scratch_apply, run_sum m c t h1]
  refine Eq.trans ?_ (G_apply (xArg m c) (wArg m c) (centArg m c) (rowOf t r) cl).symm
  rw [show (wZero : EReal) = 0 from Ideal.ofBits_zero_f32, zero_add]

/-- An index of the array is in point `t`'s output block iff each coordinate is in the block's range. -/
theorem mem_blk (t : Fin cfg0.N) (i : S8192x100.Idx) :
    i ∈ ((cfg0.win 3).blk t).view.set ↔ ∀ a : Fin 2, win0_3.index t a * S1024x100.size a ≤ (i a).val ∧ (i a).val < win0_3.index t a * S1024x100.size a + S1024x100.size a := by
  show i ∈ ((View.whole main_v8).slice (win0_3.rect t)).set ↔ _
  rw [View.set_slice_whole, Rect.mem_set_unit]
  exact Iff.rfl

/-- Row `b` is written back by the last step of row tile `b / 1024`. -/
theorem cover (i : S8192x100.Idx) : ∃ t : Fin cfg0.N, (cfg0.win 3).flush t = true ∧ i ∈ ((cfg0.win 3).blk t).view.set := by
  have hi0 : (i 0).val < 8192 := idx2_lt0 i
  have hi1 : (i 1).val < 100 := idx2_lt1 i
  have hN : cfg0.N = 64 := N_0
  have hlt : 8 * ((i 0).val / 1024) + 7 < cfg0.N :=
    lt_of_lt_of_eq (by omega : 8 * ((i 0).val / 1024) + 7 < 64) hN.symm
  refine ⟨⟨8 * ((i 0).val / 1024) + 7, hlt⟩, (flush0_3 _).mpr (by show (8 * ((i 0).val / 1024) + 7) % 8 = 7; omega), ?_⟩
  rw [mem_blk]
  obtain ⟨-, -, -, -, -, -, e0, e1⟩ := idx_facts ⟨8 * ((i 0).val / 1024) + 7, hlt⟩
  have e0' : win0_3.index ⟨8 * ((i 0).val / 1024) + 7, hlt⟩ (0 : Fin 2) = (i 0).val / 1024 := by
    rw [e0]; show (8 * ((i 0).val / 1024) + 7) / 8 = _; omega
  intro a
  match a with
  | ⟨0, _⟩ => show win0_3.index ⟨8 * ((i 0).val / 1024) + 7, hlt⟩ (0 : Fin 2) * 1024 ≤ (i 0).val ∧ (i 0).val < win0_3.index ⟨8 * ((i 0).val / 1024) + 7, hlt⟩ (0 : Fin 2) * 1024 + 1024; omega
  | ⟨1, _⟩ => show win0_3.index ⟨8 * ((i 0).val / 1024) + 7, hlt⟩ (1 : Fin 2) * 100 ≤ (i 1).val ∧ (i 1).val < win0_3.index ⟨8 * ((i 0).val / 1024) + 7, hlt⟩ (1 : Fin 2) * 100 + 100; omega

/-- THE RESULT ARRAY after the run is the specification. -/
theorem final (c : Dev nD) : (dats m 0 c).arrAt 3 cfg0.N = result m c :=
  (dats m 0 c).arrAt_eq_of_cover 3 (result m c) (fun t hf => flushed_eq m c t hf) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Hamming.Final

end
-- ==== Proof.lean ====
/-
  Hamming similarity of a thresholded random projection against a table of class hypervectors.

  Both programs compute, for sample row `b` and class `c`,
    `(10000 + ∑ d < 10000, sgn (∑ j < 1024, (x b j - 1/2) * w d j) * pm (cent c d)) * 1/2`
  where `sgn` is ±1 by the strict threshold at zero and `pm` is ±1 by a bit.

  The reference does it with two whole products. The kernel pads the projection matrix with 240 zero rows and the
  ±1 class table with 240 zero columns, walks an 8 × 8 grid (row tile, reduction step), and in each step adds the
  agreement of one block of 1280 hypervector coordinates into an accumulator it reset at the tile's first step;
  the tile's last step stores `(10000 + accumulator) * 1/2`. At the ideal values a change of float format is the
  identity and a matrix product into a zero accumulator is the plain sum of products, so the accumulator after a
  tile's eight steps is the sum of eight consecutive blocks of 1280 column terms: the 10000 real columns' terms and
  240 terms that are a ±1 times the padding zero. Addition of extended reals is commutative and associative
  everywhere, so regrouping the sum needs nothing of the inputs; the precondition is not used by the value claim.

  The three frames are the generated frame runs (the reference's is its generated run with the result dropped),
  the idealization rewrote nothing, and the value claim sets the kernel's run, read as the specification, beside
  the reference's run, read as the specification.
-/
import proofs.«145434_j48223892799748_1_alg».proof.Defs
import proofs.«145434_j48223892799748_1_alg».proof.Proof.Gen.Kernel
import proofs.«145434_j48223892799748_1_alg».proof.Proof.Gen.Kernel.Skeleton
import proofs.«145434_j48223892799748_1_alg».proof.Proof.Gen.Kernel.Launch
import proofs.«145434_j48223892799748_1_alg».proof.Proof.Gen.Kernel.Points
import proofs.«145434_j48223892799748_1_alg».proof.Proof.Gen.Kernel.Frame
import proofs.«145434_j48223892799748_1_alg».proof.Proof.Gen.KernelIdeal
import proofs.«145434_j48223892799748_1_alg».proof.Proof.Gen.KernelIdeal.Skeleton
import proofs.«145434_j48223892799748_1_alg».proof.Proof.Gen.KernelIdeal.Launch
import proofs.«145434_j48223892799748_1_alg».proof.Proof.Gen.KernelIdeal.Points
import proofs.«145434_j48223892799748_1_alg».proof.Proof.Gen.KernelIdeal.Frame
import proofs.«145434_j48223892799748_1_alg».proof.Proof.Gen.ReferenceIdeal
import proofs.«145434_j48223892799748_1_alg».proof.Proof.Gen.Pre_finite_inputs
import proofs.«145434_j48223892799748_1_alg».proof.Proof.Gen.KernelIdeal.Value
import proofs.«145434_j48223892799748_1_alg».proof.Proof.Gen.ReferenceIdeal.Run
import proofs.«145434_j48223892799748_1_alg».proof.Proof.Gen.ReferenceIdeal.Read
import proofs.«145434_j48223892799748_1_alg».proof.Proof.RefValue
import proofs.«145434_j48223892799748_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the three arguments both programs end with the specification of those arguments in
    their result arrays. -/
theorem algebraic : Cert.algebraic_KernelIdeal_ReferenceIdeal := by
  intro m ρ m' ρ' _ hagree
  refine ⟨fun c => Cert.Hamming.Final.result m c, Cert.Hamming.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Hamming.Ref.stage_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
